-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x128 : Shape := ⟨3, ![4, 512, 128]⟩
abbrev S384x128 : Shape := ⟨2, ![384, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S4x512x128 : S_.BroadcastsInDim S4x512x128 (![] : Fin 0 → Fin S4x512x128.rank)
  reducesTo_S4x512x128_S_d0_1_2 : S4x512x128.ReducesTo [0, 1, 2] S_
  h_S_ : 0 < S_.numel
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S128 .f32) (main_arg5 : FVec F S128 .f32) (main_arg6 : FVec F S128x1 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_v33

def fn {F : FTy → Type} [FloatOps F] (main_arg0 : FVec F S4x512x128 .f32) (main_arg1 : FVec F S4x512x128 .f32) (main_arg2 : FVec F S384x128 .f32) (main_arg3 : FVec F S128 .f32) (main_arg4 : FVec F S128 .f32) (main_arg5 : FVec F S128 .f32) (main_arg6 : FVec F S128x1 .f32) (main_arg7 : FVec F S1 .f32) : IVec S_ 1 :=
  let main_v0 : FVec F S4x512x128 .f32 := Host.absf main_arg0
  let main_cst : FVec F S_ .f32 := constant S_ .f32 0x7F800000#32
  let main_v1 : FVec F S4x512x128 .f32 := broadcastInDim S4x512x128 ![] bcast_S_S4x512x128 main_cst
  let main_v2 : IVec S4x512x128 1 := cmpf .olt main_v0 main_v1
  let main_c : IVec S_ 1 := constantI S_ 1 1#1
  let main_v3 : IVec S_ 1 := (fun x v => Host.reduce IntOp.andi x v reducesTo_S4x512x128_S_d0_1_2 h_S_) main_v2 main_c
  let main_v4 : FVec F S4x512x128 .f32 := Host.absf main_arg1
  let main_cst_0 : FVec F S_ .f32 := constant S_ .f32 0x7F800000#32
  let main_v5 : FVec F S4x512x128 .f32 := broadcastInDim S4x512x128 ![] bcast_S_S4x512x128 main_cst_0
  let main_v6 : IVec S4x512x128 1 := cmpf .olt main_v4 main_v5
  let main_c_1 : IVec S_ 1 := constantI S_ 1 1#1
  let main_v7 : IVec S_ 1 := (fun x v => Host.reduce IntOp.andi x v reducesTo_S4x512x128_S_d0_1_2 h_S_) main_v6 main_c_1
  let main_v8 : IVec S_ 1 := andi main_v3 main_v7
  let main_v9 : FVec F S384x128 .f32 := Host.absf main_arg2
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S4x512x128 : Shape := ⟨3, ![4, 512, 128]⟩
abbrev S384x128 : Shape := ⟨2, ![384, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S1x128 : Shape := ⟨2, ![1, 128]⟩
abbrev S1x1 : Shape := ⟨2, ![1, 1]⟩
abbrev S4x512x512 : Shape := ⟨3, ![4, 512, 512]⟩
abbrev S1x64x128 : Shape := ⟨3, ![1, 64, 128]⟩
abbrev S1x128x128 : Shape := ⟨3, ![1, 128, 128]⟩
abbrev S64x128 : Shape := ⟨2, ![64, 128]⟩
abbrev S64x1x128 : Shape := ⟨3, ![64, 1, 128]⟩
abbrev S64x128x128 : Shape := ⟨3, ![64, 128, 128]⟩
abbrev S8192x128 : Shape := ⟨2, ![8192, 128]⟩
abbrev S1x1x128 : Shape := ⟨3, ![1, 1, 128]⟩
abbrev S64x128x1 : Shape := ⟨3, ![64, 128, 1]⟩
abbrev S8192x1 : Shape := ⟨2, ![8192, 1]⟩

abbrev nBuf : Space → Nat
  | .hbm => 16
  | .vmem => 14
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S384x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S1x1, .f32⟩
  | .hbm, ⟨15, _⟩ => ⟨S4x512x512, .f32⟩
  | .local _ .vmem, ⟨0, _⟩ => ⟨S1x64x128, .f32⟩
  | .local _ .vmem, ⟨1, _⟩ => ⟨S1x64x128, .f32⟩
  | .local _ .vmem, ⟨2, _⟩ => ⟨S1x128x128, .f32⟩
  | .local _ .vmem, ⟨3, _⟩ => ⟨S1x128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x1, .f32⟩
  | .local _ .vmem, ⟨11, _⟩ => ⟨S1x1, .f32⟩
  | .local _ .vmem, ⟨12, _⟩ => ⟨S1x64x128, .f32⟩
  | .local _ .vmem, ⟨13, _⟩ => ⟨S1x64x128, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

class Facts₀ : Prop where
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  shapeCasts_S1_S1x1 : S1.ShapeCasts S1x1
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S64x128_S64x1x128 : S64x128.ShapeCasts S64x1x128
  shapeCasts_S128x128_S1x128x128 : S128x128.ShapeCasts S1x128x128
  broadcasts_S64x1x128_S64x128x128 : S64x1x128.Broadcasts S64x128x128
  broadcasts_S1x128x128_S64x128x128 : S1x128x128.Broadcasts S64x128x128
  shapeCasts_S64x128x128_S8192x128 : S64x128x128.ShapeCasts S8192x128
  shapeCasts_S8192x128_S64x128x128 : S8192x128.ShapeCasts S64x128x128
  shapeCasts_S1x128_S1x1x128 : S1x128.ShapeCasts S1x1x128
  broadcasts_S1x1x128_S64x128x128 : S1x1x128.Broadcasts S64x128x128
  reduces_S64x128x128_S64x128 : S64x128x128.Reduces [2] S64x128
  shapeCasts_S64x128_S64x128x1 : S64x128.ShapeCasts S64x128x1
  broadcasts_S64x128x1_S64x128x128 : S64x128x1.Broadcasts S64x128x128
  shapeCasts_S8192x1_S64x128 : S8192x1.ShapeCasts S64x128
  broadcasts_S1x1_S64x128 : S1x1.Broadcasts S64x128
  shapeCasts_S64x128_S1x64x128 : S64x128.ShapeCasts S1x64x128
  dot_S64x128_S128x128_S64x128_1_0_0_1_n_n_wf : DotDims.WF S64x128 S128x128 S64x128 [1] [0] [0] [1] [] []
  dot_S128x128_S128x128_S128x128_1_0_0_1_n_n_wf : DotDims.WF S128x128 S128x128 S128x128 [1] [0] [0] [1] [] []
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S4x512x128.size a
  hwx0_0 : ∀ i : grid0.Coords, EltTy.bits .f32 = 32 ∨ (Rect.block (s := S4x512x128) S1x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S4x512x128.size a
  hwx0_1 : ∀ i : grid0.Coords, EltTy.bits .f32 = 32 ∨ (Rect.block (s := S4x512x128) S1x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S128x1.size a
  hwx0_8 : ∀ i : grid0.Coords, EltTy.bits .f32 = 32 ∨ (Rect.block (s := S128x1) S128x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x64x128.size a ≤ S4x512x512.size a
  hwx0_10 : ∀ i : grid0.Coords, EltTy.bits .f32 = 32 ∨ (Rect.block (s := S4x512x512) S1x64x128.size (cc0_transform_10 i) (hinb0_10 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

abbrev win0_0 : Pipeline.Window sig grid0 :=
  Pipeline.Window.ofSpec (Memref.whole main_arg0) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x64x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4x512x128 : Shape := ⟨3, ![4, 512, 128]⟩
abbrev S384x128 : Shape := ⟨2, ![384, 128]⟩
abbrev S128 : Shape := ⟨1, ![128]⟩
abbrev S128x1 : Shape := ⟨2, ![128, 1]⟩
abbrev S1 : Shape := ⟨1, ![1]⟩
abbrev S4x512x1x128 : Shape := ⟨4, ![4, 512, 1, 128]⟩
abbrev S4x1x512x128 : Shape := ⟨4, ![4, 1, 512, 128]⟩
abbrev S4x512x512x128 : Shape := ⟨4, ![4, 512, 512, 128]⟩
abbrev S128x128 : Shape := ⟨2, ![128, 128]⟩
abbrev S1x1x1x128 : Shape := ⟨4, ![1, 1, 1, 128]⟩
abbrev S_ : Shape := ⟨0, ![]⟩
abbrev S4x512x512 : Shape := ⟨3, ![4, 512, 512]⟩
abbrev S4x512x512x1 : Shape := ⟨4, ![4, 512, 512, 1]⟩
abbrev S1x1x1x1 : Shape := ⟨4, ![1, 1, 1, 1]⟩

abbrev nBuf : Space → Nat
  | .hbm => 69
  | .vmem => 0
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S384x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S4x512x1x128, .f32⟩
  | .hbm, ⟨9, _⟩ => ⟨S4x1x512x128, .f32⟩
  | .hbm, ⟨10, _⟩ => ⟨S4x512x512x128, .f32⟩
  | .hbm, ⟨11, _⟩ => ⟨S4x512x512x128, .f32⟩
  | .hbm, ⟨12, _⟩ => ⟨S4x512x512x128, .f32⟩
  | .hbm, ⟨13, _⟩ => ⟨S4x512x512x128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S4x512x128, .f32⟩
  | .hbm, ⟨18, _⟩ => ⟨S4x512x1x128, .f32⟩
  | .hbm, ⟨19, _⟩ => ⟨S4x512x128, .f32⟩
  | .hbm, ⟨20, _⟩ => ⟨S4x1x512x128, .f32⟩
  | .hbm, ⟨21, _⟩ => ⟨S4x512x512x128, .f32⟩
  | .hbm, ⟨22, _⟩ => ⟨S4x512x512x128, .f32⟩
  | .hbm, ⟨23, _⟩ => ⟨S4x512x512x128, .f32⟩
  | .hbm, ⟨24, _⟩ => ⟨S4x512x512x128, .f32⟩
  | .hbm, ⟨25, _⟩ => ⟨S4x512x512x128, .f32⟩
  | .hbm, ⟨26, _⟩ => ⟨S1x1x1x128, .f32⟩
  | .hbm, ⟨27, _⟩ => ⟨S4x512x512x128, .f32⟩
  | .hbm, ⟨28, _⟩ => ⟨S4x512x512x128, .f32⟩
  | .hbm, ⟨29, _⟩ => ⟨S_, .f32⟩
  | .hbm, ⟨30, _⟩ => ⟨S4x512x512, .f32⟩
  | .hbm, ⟨31, _⟩ => ⟨S4x512x512x1, .f32⟩
  | .hbm, ⟨32, _⟩ => ⟨S_, .f32⟩
  | .hbm, ⟨33, _⟩ => ⟨S4x512x512x1, .f32⟩
  | .hbm, ⟨34, _⟩ => ⟨S4x512x512x1, .f32⟩
  | .hbm, ⟨35, _⟩ => ⟨S4x512x512x128, .f32⟩
  | .hbm, ⟨36, _⟩ => ⟨S4x512x512x128, .f32⟩
  | .hbm, ⟨37, _⟩ => ⟨S4x512x512x128, .f32⟩
  | .hbm, ⟨38, _⟩ => ⟨S_, .f32⟩
  | .hbm, ⟨39, _⟩ => ⟨S4x512x512, .f32⟩
  | .hbm, ⟨40, _⟩ => ⟨S4x512x512x1, .f32⟩
  | .hbm, ⟨41, _⟩ => ⟨S_, .f32⟩
  | .hbm, ⟨42, _⟩ => ⟨S4x512x512x1, .f32⟩
  | .hbm, ⟨43, _⟩ => ⟨S4x512x512x1, .f32⟩
  | .hbm, ⟨44, _⟩ => ⟨S4x512x512x128, .f32⟩
  | .hbm, ⟨45, _⟩ => ⟨S4x512x512x128, .f32⟩
  | .hbm, ⟨46, _⟩ => ⟨S_, .f32⟩
  | .hbm, ⟨47, _⟩ => ⟨S4x512x512x1, .f32⟩
  | .hbm, ⟨48, _⟩ => ⟨S4x512x512x1, .f32⟩
  | .hbm, ⟨49, _⟩ => ⟨S4x512x512x1, .f32⟩
  | .hbm, ⟨50, _⟩ => ⟨S4x512x512x128, .f32⟩
  | .hbm, ⟨51, _⟩ => ⟨S4x512x512x128, .f32⟩
  | .hbm, ⟨52, _⟩ => ⟨S1x1x1x128, .f32⟩
  | .hbm, ⟨53, _⟩ => ⟨S4x512x512x128, .f32⟩
  | .hbm, ⟨54, _⟩ => ⟨S4x512x512x128, .f32⟩
  | .hbm, ⟨55, _⟩ => ⟨S1x1x1x128, .f32⟩
  | .hbm, ⟨56, _⟩ => ⟨S4x512x512x128, .f32⟩
  | .hbm, ⟨57, _⟩ => ⟨S4x512x512x128, .f32⟩
  | .hbm, ⟨58, _⟩ => ⟨S_, .f32⟩
  | .hbm, ⟨59, _⟩ => ⟨S4x512x512x128, .f32⟩
  | .hbm, ⟨60, _⟩ => ⟨S4x512x512x128, .f32⟩
  | .hbm, ⟨61, _⟩ => ⟨S4x512x512x1, .f32⟩
  | .hbm, ⟨62, _⟩ => ⟨S1x1x1x1, .f32⟩
  | .hbm, ⟨63, _⟩ => ⟨S4x512x512x1, .f32⟩
  | .hbm, ⟨64, _⟩ => ⟨S4x512x512x1, .f32⟩
  | .hbm, ⟨65, _⟩ => ⟨S_, .f32⟩
  | .hbm, ⟨66, _⟩ => ⟨S4x512x512x1, .f32⟩
  | .hbm, ⟨67, _⟩ => ⟨S4x512x512x1, .f32⟩
  | .hbm, ⟨68, _⟩ => ⟨S4x512x512, .f32⟩
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_call0_cst : Ref sig .tc := ⟨.hbm, 58, rfl⟩
abbrev main_call0_v0 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_call1_cst : Ref sig .tc := ⟨.hbm, 65, rfl⟩
abbrev main_call1_v0 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]

class Facts₀ : Prop where
  bcast_S4x512x128_S4x512x1x128_0_1_3 : S4x512x128.BroadcastsInDim S4x512x1x128 (![0, 1, 3] : Fin 3 → Fin S4x512x1x128.rank)
  bcast_S4x512x128_S4x1x512x128_0_2_3 : S4x512x128.BroadcastsInDim S4x1x512x128 (![0, 2, 3] : Fin 3 → Fin S4x1x512x128.rank)
  bcast_S4x512x1x128_S4x512x512x128_0_1_2_3 : S4x512x1x128.BroadcastsInDim S4x512x512x128 (![0, 1, 2, 3] : Fin 4 → Fin S4x512x512x128.rank)
  bcast_S4x1x512x128_S4x512x512x128_0_1_2_3 : S4x1x512x128.BroadcastsInDim S4x512x512x128 (![0, 1, 2, 3] : Fin 4 → Fin S4x512x512x128.rank)
  slices_S384x128_S128x128_0_0 : S384x128.Slices ![0, 0] S128x128
  slices_S384x128_S128x128_128_0 : S384x128.Slices ![128, 0] S128x128
  slices_S384x128_S128x128_256_0 : S384x128.Slices ![256, 0] S128x128
  bcast_S128_S1x1x1x128_3 : S128.BroadcastsInDim S1x1x1x128 (![3] : Fin 1 → Fin S1x1x1x128.rank)
  bcast_S1x1x1x128_S4x512x512x128_0_1_2_3 : S1x1x1x128.BroadcastsInDim S4x512x512x128 (![0, 1, 2, 3] : Fin 4 → Fin S4x512x512x128.rank)
  reducesTo_S4x512x512x128_S4x512x512_d3 : S4x512x512x128.ReducesTo [3] S4x512x512
  h_S_ : 0 < S_.numel
  bcast_S4x512x512_S4x512x512x1_0_1_2 : S4x512x512.BroadcastsInDim S4x512x512x1 (![0, 1, 2] : Fin 3 → Fin S4x512x512x1.rank)
  bcast_S_S4x512x512x1 : S_.BroadcastsInDim S4x512x512x1 (![] : Fin 0 → Fin S4x512x512x1.rank)
  bcast_S4x512x512x1_S4x512x512x128_0_1_2_3 : S4x512x512x1.BroadcastsInDim S4x512x512x128 (![0, 1, 2, 3] : Fin 4 → Fin S4x512x512x128.rank)
  bcast_S_S4x512x512x128 : S_.BroadcastsInDim S4x512x512x128 (![] : Fin 0 → Fin S4x512x512x128.rank)
  bcast_S1_S1x1x1x1_3 : S1.BroadcastsInDim S1x1x1x1 (![3] : Fin 1 → Fin S1x1x1x1.rank)
  bcast_S1x1x1x1_S4x512x512x1_0_1_2_3 : S1x1x1x1.BroadcastsInDim S4x512x512x1 (![0, 1, 2, 3] : Fin 4 → Fin S4x512x512x1.rank)
  shapeCasts_S4x512x512x1_S4x512x512 : S4x512x512x1.ShapeCasts S4x512x512
  dot_S4x512x128_S128x128_S4x512x128_2_0_01_1_n_n_wf : DotDims.WF S4x512x128 S128x128 S4x512x128 [2] [0] [0, 1] [1] [] []
  dot_S4x512x512x128_S128x128_S4x512x512x128_3_0_012_1_n_n_wf : DotDims.WF S4x512x512x128 S128x128 S4x512x512x128 [3] [0] [0, 1, 2] [1] [] []
  dot_S4x512x512x128_S128x1_S4x512x512x1_3_0_012_1_n_n_wf : DotDims.WF S4x512x512x128 S128x1 S4x512x512x1 [3] [0] [0, 1, 2] [1] [] []

variable [Facts₀]

def dot_S4x512x128_S128x128_S4x512x128_2_0_01_1_n_n : DotDims S4x512x128 S128x128 S4x512x128 where
  lhsContracting := [2]
  rhsContracting := [0]
  lhsNonContracting := [0, 1]
  rhsNonContracting := [1]
  lhsBatch := []
  rhsBatch := []
  wf := dot_S4x512x128_S128x128_S4x512x128_2_0_01_1_n_n_wf
def dot_S4x512x512x128_S128x128_S4x512x512x128_3_0_012_1_n_n : DotDims S4x512x512x128 S128x128 S4x512x512x128 where
  lhsContracting := [3]
  rhsContracting := [0]
  lhsNonContracting := [0, 1, 2]
  rhsNonContracting := [1]
  lhsBatch := []
  rhsBatch := []
  wf := dot_S4x512x512x128_S128x128_S4x512x512x128_3_0_012_1_n_n_wf
def dot_S4x512x512x128_S128x1_S4x512x512x1_3_0_012_1_n_n : DotDims S4x512x512x128 S128x1 S4x512x512x1 where
  lhsContracting := [3]
  rhsContracting := [0]
  lhsNonContracting := [0, 1, 2]
  rhsNonContracting := [1]
  lhsBatch := []
  rhsBatch := []
  wf := dot_S4x512x512x128_S128x1_S4x512x512x1_3_0_012_1_n_n_wf

class Facts : Prop extends Facts₀ where

variable [Facts]
-- ==== Proof.PairScore.lean ====
/-
  The mathematics of the kernel, for ONE pair (a row of x, a row of y), over the extended reals.

  For a pair of rows X, Y in R^128 the network forms the 384-vector (X, Y, |X - Y|), applies the first linear layer
  (written as three 128x128 blocks A, B, C of its weight matrix, so no concatenation is materialised) and the bias,
  normalises the 128 hidden values (mean and variance over the hidden axis, both as sum / 128, the variance shifted
  by the constant eps), scales and shifts them, takes the positive part, applies the second linear layer (one column
  w, one bias) and takes the positive part again. Every sum is a plain finite sum, so neither the order of
  summation nor any tiling shows in these definitions.
-/
import Idealize.ShloMosaic.PureOps.Ideal

noncomputable section

namespace Cert.PairScore

open Idealize.ShloMosaic

/-- The hidden layer before normalisation: X·A + Y·B + |X − Y|·C + b, at hidden unit `h`. -/
def hidden (X Y : Fin 128 → EReal) (A B C : Fin 128 → Fin 128 → EReal) (b : Fin 128 → EReal) (h : Fin 128) : EReal :=
  (∑ d : Fin 128, X d * A d h) + (∑ d : Fin 128, Y d * B d h)
    + (∑ d : Fin 128, max (X d - Y d) (-(X d - Y d)) * C d h) + b h

/-- The mean of 128 values: their sum divided by 128 (the divisor is the float 128.0, an exact integer). -/
def mean (v : Fin 128 → EReal) : EReal :=
  Ideal.div (∑ k : Fin 128, v k) (Ideal.ofBits .f32 0x43000000#32)

/-- Layer normalisation over the 128 hidden values, then scale `g`, shift `s` and the positive part:
    max ((v − mean v) · (var v + eps)^(−1/2) · g + s, 0), with var v the mean of the squared deviations. -/
def normRelu (v g s : Fin 128 → EReal) (h : Fin 128) : EReal :=
  max ((v h - mean v) * Ideal.rsqrt (mean (fun k => (v k - mean v) * (v k - mean v)) + Ideal.ofBits .f32 0x3727C5AC#32)
      * g h + s h) (Ideal.ofBits .f32 0x00000000#32)

/-- The output unit: max (a·w + c, 0). -/
def readout (a w : Fin 128 → EReal) (c : EReal) : EReal :=
  max ((∑ h : Fin 128, a h * w h) + c) (Ideal.ofBits .f32 0x00000000#32)

/-- One pair's score. -/
def score (X Y : Fin 128 → EReal) (A B C : Fin 128 → Fin 128 → EReal) (b g s w : Fin 128 → EReal) (c : EReal) : EReal :=
  readout (normRelu (hidden X Y A B C b) g s) w c

end Cert.PairScore

end
-- ==== Proof.LibPlainMatmul.lean ====
/-
  A general lemma: a plain matrix product read at an index.

  For dimension numbers that contract the left operand's axis 1 with the right operand's axis 0 and have no batch
  axis (an M×K matrix times a K×N matrix), a matrix product accumulated into the zero matrix is, at the exact
  (extended-real) reading of floats and at entry (a, b), the finite sum over k of l(a, k) · r(k, b). The statement
  is over any record of such dimension numbers, whatever proof of well-formedness it carries, so one lemma serves
  every shape.
-/
import Idealize.ShloMosaic.PureOps.Ideal.Laws
import Idealize.ShloMosaic.Lib.ValueIdx

noncomputable section

namespace Cert.PlainMatmul

open Idealize.ShloMosaic Idealize.ShloMosaic.ValueIdx

variable {M K N : Nat}

/-- The dimension numbers of a plain product: contract left axis 1 with right axis 0, keep left axis 0 then right
    axis 1, no batch axes. -/
def IsPlain (D : DotDims ⟨2, ![M, K]⟩ ⟨2, ![K, N]⟩ ⟨2, ![M, N]⟩) : Prop :=
  D.lhsContracting = [1] ∧ D.rhsContracting = [0] ∧ D.lhsNonContracting = [0] ∧ D.rhsNonContracting = [1]
    ∧ D.lhsBatch = [] ∧ D.rhsBatch = []

/-- Such a record with its lists written out. -/
abbrev mk (wf : DotDims.WF (⟨2, ![M, K]⟩ : Shape) ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF (⟨2, ![M, K]⟩ : Shape) ⟨2, ![K, N]⟩ ⟨2, ![M, N]⟩ [1] [0] [0] [1] [] [])

/-- The left operand's row is the output's row. -/
theorem lhs_row (j : (⟨2, ![M, N]⟩ : Shape).Idx) (q : (mk wf).contr.Idx) : ((mk wf).lhsIdx j q 0).val = (j 0).val := by
  unfold DotDims.lhsIdx
  rw [dif_neg (show ¬(0 : Fin (⟨2, ![M, K]⟩ : Shape).rank) ∈ (mk wf).lhsBatch by
      show ¬(0 : Fin 2) ∈ ([] : List (Fin 2)); decide),
    dif_pos (show (0 : Fin (⟨2, ![M, K]⟩ : Shape).rank) ∈ (mk wf).lhsNonContracting by
      show (0 : Fin 2) ∈ ([0] : List (Fin 2)); decide)]
  rfl

/-- The left operand's column is the contraction index. -/
theorem lhs_col (j : (⟨2, ![M, N]⟩ : Shape).Idx) (q : (mk wf).contr.Idx) :
    ((mk wf).lhsIdx j q 1).val = (q ⟨0, Nat.one_pos⟩).val :=
  (mk wf).lhsIdx_val_of_single rfl j q

/-- The right operand's row is the contraction index. -/
theorem rhs_row (j : (⟨2, ![M, N]⟩ : Shape).Idx) (q : (mk wf).contr.Idx) :
    ((mk wf).rhsIdx j q 0).val = (q ⟨0, Nat.one_pos⟩).val :=
  (mk wf).rhsIdx_val_of_single rfl j q

/-- The right operand's column is the output's column. -/
theorem rhs_col (j : (⟨2, ![M, N]⟩ : Shape).Idx) (q : (mk wf).contr.Idx) : ((mk wf).rhsIdx j q 1).val = (j 1).val := by
  unfold DotDims.rhsIdx
  rw [dif_neg (show ¬(1 : Fin (⟨2, ![K, N]⟩ : Shape).rank) ∈ (mk wf).rhsBatch by
      show ¬(1 : Fin 2) ∈ ([] : List (Fin 2)); decide),
    dif_pos (show (1 : Fin (⟨2, ![K, N]⟩ : Shape).rank) ∈ (mk wf).rhsNonContracting by
      show (1 : Fin 2) ∈ ([1] : List (Fin 2)); decide)]
  rfl

/-- The product into the zero matrix, for the written-out record. -/
theorem mk_zero_apply {φ₁ φ₂ : FTy} (l : FVec Ideal ⟨2, ![M, K]⟩ φ₁) (r : FVec Ideal ⟨2, ![K, N]⟩ φ₂) (a : Fin M) (b : Fin N) :
    FloatOps.matmul (mk wf) none l r (constant ⟨2, ![M, N]⟩ .f32 0x00000000#32) (ix2 a b)
      = ∑ k : Fin K, l (ix2 a k) * r (ix2 k b) := by
  rw [Ideal.matmul_constant_zero_apply, ← Equiv.sum_comp (contrEquiv1 (mk wf) K rfl rfl).symm]
  refine Finset.sum_congr rfl fun k _ => ?_
  have hk := contrEquiv1_symm_val (mk wf) K rfl rfl k
  have el : (mk wf).lhsIdx (ix2 a b) ((contrEquiv1 (mk wf) K rfl rfl).symm k) = ix2 a k := funext fun x => Fin.ext (by
    match x with
    | ⟨0, _⟩ => exact lhs_row wf _ _
    | ⟨1, _⟩ => exact (lhs_col wf _ _).trans hk)
  have er : (mk wf).rhsIdx (ix2 a b) ((contrEquiv1 (mk wf) K rfl rfl).symm k) = ix2 k b := funext fun x => Fin.ext (by
    match x with
    | ⟨0, _⟩ => exact (rhs_row wf _ _).trans hk
    | ⟨1, _⟩ => exact rhs_col wf _ _)
  rw [el, er]

/-- A plain M×K by K×N product accumulated into zero, read at (a, b), is ∑ₖ l(a, k) · r(k, b). -/
theorem zero_apply (D : DotDims ⟨2, ![M, K]⟩ ⟨2, ![K, N]⟩ ⟨2, ![M, N]⟩) (hD : IsPlain D) {φ₁ φ₂ : FTy}
    (l : FVec Ideal ⟨2, ![M, K]⟩ φ₁) (r : FVec Ideal ⟨2, ![K, N]⟩ φ₂) (a : Fin M) (b : Fin N) :
    matmul D none l r (constant ⟨2, ![M, N]⟩ .f32 0x00000000#32) (ix2 a b) = ∑ k : Fin K, l (ix2 a k) * r (ix2 k b) := by
  obtain ⟨lc, rc, ln, rn, lb, rb, wf⟩ := D
  obtain ⟨h1, h2, h3, h4, h5, h6⟩ := hD
  dsimp only at h1 h2 h3 h4 h5 h6
  subst h1 h2 h3 h4 h5 h6
  exact mk_zero_apply wf l r a b

end Cert.PlainMatmul

end
-- ==== Proof.BodyLayout.lean ====
/-
  The kernel body's layout operations, each read at coordinates.

  The body works on a 64×128 tile of pairs: 64 rows of x against 128 rows of y, 128 hidden units each. It moves
  between three arrangements of the same numbers: per pair and hidden unit, [64, 128, 128]; pairs flattened
  row-major for the matrix unit, [8192, 128] with row p·128 + q for pair (p, q); and per pair, [64, 128]. Around
  these it inserts and broadcasts unit axes (a row of x against all rows of y, a per-hidden-unit parameter against
  all pairs, a per-pair statistic against all hidden units). Every lemma here says which entry of the operand an
  entry of the result is.
-/
import proofs.«178383_j1460288881502_1_alg».proof.KernelIdeal
import Idealize.ShloMosaic.Lib.Pipeline.Value
import Idealize.ShloMosaic.Lib.ValueIdx
import Idealize.ShloMosaic.PureOps.Ideal.Laws

noncomputable section

namespace Cert.KernelIdeal.BodyLayout

open Idealize.ShloMosaic Idealize.ShloMosaic.ValueIdx Cert.KernelIdeal

variable {α : Type}

/-- The flattened row of pair (p, q): p·128 + q. -/
abbrev flat (p : Fin 64) (q : Fin 128) : Fin 8192 := ⟨p.val * 128 + q.val, by have := p.isLt; have := q.isLt; omega⟩

/-! ## Unit axes: a tile's leading axis, and the axis a row is broadcast along -/

/-- A [1, 64, 128] block seen as [64, 128]. -/
theorem drop_lead_x (v : S1x64x128.Idx → α) (h : S1x64x128.ShapeCasts S64x128) (p : Fin 64) (d : Fin 128) :
    shapeCast S64x128 v h (ix2 p d) = v (ix3 (0 : Fin 1) p d) :=
  shapeCast_apply v h _ _ (by
    rw [Shape.rowMajor_val_three, Shape.rowMajor_val_two]
    show (0 * 64 + p.val) * 128 + d.val = p.val * 128 + d.val
    omega)

/-- A [1, 128, 128] block seen as [128, 128]. -/
theorem drop_lead_y (v : S1x128x128.Idx → α) (h : S1x128x128.ShapeCasts S128x128) (q : Fin 128) (d : Fin 128) :
    shapeCast S128x128 v h (ix2 q d) = v (ix3 (0 : Fin 1) q d) :=
  shapeCast_apply v h _ _ (by
    rw [Shape.rowMajor_val_three, Shape.rowMajor_val_two]
    show (0 * 128 + q.val) * 128 + d.val = q.val * 128 + d.val
    omega)

/-- A [64, 128] result stored as a [1, 64, 128] block. -/
theorem add_lead_out (v : S64x128.Idx → α) (h : S64x128.ShapeCasts S1x64x128) (u : Fin 1) (p : Fin 64) (q : Fin 128) :
    shapeCast S1x64x128 v h (ix3 u p q) = v (ix2 p q) :=
  shapeCast_apply v h _ _ (by
    have hu : u.val = 0 := by omega
    rw [Shape.rowMajor_val_two, Shape.rowMajor_val_three]
    show p.val * 128 + q.val = (u.val * 64 + p.val) * 128 + q.val
    omega)

/-- x's rows against every row of y: [64, 128] → [64, 1, 128] → [64, 128, 128] reads row p. -/
theorem x_rows (v : S64x128.Idx → α) (h : S64x128.ShapeCasts S64x1x128) (hb : S64x1x128.Broadcasts S64x128x128)
    (p : Fin 64) (q : Fin 128) (d : Fin 128) :
    broadcastTo S64x128x128 (shapeCast S64x1x128 v h) hb (ix3 p q d) = v (ix2 p d) := by
  refine (broadcastTo_apply _ hb (ix3 p q d) (ix3 p (0 : Fin 1) d) fun a => ?_).trans ?_
  · match a with
    | ⟨0, _⟩ => rfl
    | ⟨1, _⟩ => rfl
    | ⟨2, _⟩ => rfl
  · exact shapeCast_apply v h _ _ (by
      rw [Shape.rowMajor_val_two, Shape.rowMajor_val_three]
      show p.val * 128 + d.val = (p.val * 1 + 0) * 128 + d.val
      omega)

/-- y's rows against every row of x: [128, 128] → [1, 128, 128] → [64, 128, 128] reads row q. -/
theorem y_rows (v : S128x128.Idx → α) (h : S128x128.ShapeCasts S1x128x128) (hb : S1x128x128.Broadcasts S64x128x128)
    (p : Fin 64) (q : Fin 128) (d : Fin 128) :
    broadcastTo S64x128x128 (shapeCast S1x128x128 v h) hb (ix3 p q d) = v (ix2 q d) := by
  refine (broadcastTo_apply _ hb (ix3 p q d) (ix3 (0 : Fin 1) q d) fun a => ?_).trans ?_
  · match a with
    | ⟨0, _⟩ => rfl
    | ⟨1, _⟩ => rfl
    | ⟨2, _⟩ => rfl
  · exact shapeCast_apply v h _ _ (by
      rw [Shape.rowMajor_val_two, Shape.rowMajor_val_three]
      show q.val * 128 + d.val = (0 * 128 + q.val) * 128 + d.val
      omega)

/-- A per-hidden-unit parameter against every pair: [1, 128] → [1, 1, 128] → [64, 128, 128] reads unit k. -/
theorem per_unit (v : S1x128.Idx → α) (h : S1x128.ShapeCasts S1x1x128) (hb : S1x1x128.Broadcasts S64x128x128)
    (p : Fin 64) (q : Fin 128) (k : Fin 128) :
    broadcastTo S64x128x128 (shapeCast S1x1x128 v h) hb (ix3 p q k) = v (ix2 (0 : Fin 1) k) := by
  refine (broadcastTo_apply _ hb (ix3 p q k) (ix3 (0 : Fin 1) (0 : Fin 1) k) fun a => ?_).trans ?_
  · match a with
    | ⟨0, _⟩ => rfl
    | ⟨1, _⟩ => rfl
    | ⟨2, _⟩ => rfl
  · exact shapeCast_apply v h _ _ (by
      rw [Shape.rowMajor_val_two, Shape.rowMajor_val_three]
      show 0 * 128 + k.val = (0 * 1 + 0) * 128 + k.val
      omega)

/-- A per-pair statistic kept with a unit last axis: [64, 128] → [64, 128, 1]. -/
theorem keep_last (v : S64x128.Idx → α) (h : S64x128.ShapeCasts S64x128x1) (p : Fin 64) (q : Fin 128) (u : Fin 1) :
    shapeCast S64x128x1 v h (ix3 p q u) = v (ix2 p q) :=
  shapeCast_apply v h _ _ (by
    have hu : u.val = 0 := by omega
    rw [Shape.rowMajor_val_two, Shape.rowMajor_val_three]
    show p.val * 128 + q.val = (p.val * 128 + q.val) * 1 + u.val
    omega)

/-- A per-pair statistic against every hidden unit: [64, 128, 1] → [64, 128, 128] reads the pair's one entry. -/
theorem per_pair (v : S64x128x1.Idx → α) (hb : S64x128x1.Broadcasts S64x128x128) (p : Fin 64) (q : Fin 128) (k : Fin 128) :
    broadcastTo S64x128x128 v hb (ix3 p q k) = v (ix3 p q (0 : Fin 1)) :=
  broadcastTo_apply v hb (ix3 p q k) (ix3 p q (0 : Fin 1)) fun a =>
    match a with
    | ⟨0, _⟩ => rfl
    | ⟨1, _⟩ => rfl
    | ⟨2, _⟩ => rfl

/-- The one output bias against every pair: [1, 1] → [64, 128]. -/
theorem one_entry (v : S1x1.Idx → α) (hb : S1x1.Broadcasts S64x128) (p : Fin 64) (q : Fin 128) :
    broadcastTo S64x128 v hb (ix2 p q) = v (ix2 (0 : Fin 1) (0 : Fin 1)) :=
  broadcastTo_apply v hb (ix2 p q) (ix2 (0 : Fin 1) (0 : Fin 1)) fun a =>
    match a with
    | ⟨0, _⟩ => rfl
    | ⟨1, _⟩ => rfl

/-! ## Pairs flattened for the matrix unit, and back -/

/-- [64, 128, 128] → [8192, 128]: row p·128 + q is pair (p, q). -/
theorem flatten_pairs (v : S64x128x128.Idx → α) (h : S64x128x128.ShapeCasts S8192x128) (p : Fin 64) (q : Fin 128) (d : Fin 128) :
    shapeCast S8192x128 v h (ix2 (flat p q) d) = v (ix3 p q d) :=
  shapeCast_apply v h _ _ (by
    rw [Shape.rowMajor_val_three, Shape.rowMajor_val_two]
    show (p.val * 128 + q.val) * 128 + d.val = (p.val * 128 + q.val) * 128 + d.val
    rfl)

/-- [8192, 128] → [64, 128, 128]: pair (p, q) is row p·128 + q. -/
theorem unflatten_pairs (v : S8192x128.Idx → α) (h : S8192x128.ShapeCasts S64x128x128) (p : Fin 64) (q : Fin 128) (k : Fin 128) :
    shapeCast S64x128x128 v h (ix3 p q k) = v (ix2 (flat p q) k) :=
  shapeCast_apply v h _ _ (by
    rw [Shape.rowMajor_val_two, Shape.rowMajor_val_three]
    show (p.val * 128 + q.val) * 128 + k.val = (p.val * 128 + q.val) * 128 + k.val
    rfl)

/-- [8192, 1] → [64, 128]: pair (p, q) is row p·128 + q of the one column. -/
theorem unflatten_column (v : S8192x1.Idx → α) (h : S8192x1.ShapeCasts S64x128) (p : Fin 64) (q : Fin 128) :
    shapeCast S64x128 v h (ix2 p q) = v (ix2 (flat p q) (0 : Fin 1)) :=
  shapeCast_apply v h _ _ (by
    rw [Shape.rowMajor_val_two, Shape.rowMajor_val_two]
    show (p.val * 128 + q.val) * 1 + 0 = p.val * 128 + q.val
    omega)

/-! ## The sum over the hidden axis -/

/-- The lane sum of a [64, 128, 128] value over its last axis, at pair (p, q), is the sum over the 128 hidden units. -/
theorem hidden_sum (v : FVec Ideal S64x128x128 .f32) (h : S64x128x128.Reduces [2] S64x128) (hφ : FKind.Formats .f32)
    (hacc : (0x00000000#32 : BitVec (FTy.bits .f32)) = FKind.add.neutral .f32 hφ) (p : Fin 64) (q : Fin 128) :
    multiReduction .add [2] S64x128 v 0x00000000#32 h hφ hacc (ix2 p q) = ∑ k : Fin 128, v (ix3 p q k) := by
  refine (Ideal.multiReduction_add_single v 0x00000000#32 h hφ hacc (ix2 p q)).trans ?_
  refine Finset.sum_congr rfl fun k _ => congrArg v (funext fun a => Fin.ext ?_)
  match a with
  | ⟨0, _⟩ => rfl
  | ⟨1, _⟩ => rfl
  | ⟨2, _⟩ => rfl

end Cert.KernelIdeal.BodyLayout

end
-- ==== Proof.KernelBody.lean ====
/-
  What the kernel body computes for one tile, entry by entry.

  The body's one stored value is, at pair (p, q) of the tile, the pair score (PairScore.lean) of row p of the x block
  and row q of the y block under the weight blocks it loaded. The body is read in three stages, each a function of
  whole vectors and each read at coordinates: the hidden layer before normalisation, [64, 128, 128]; its layer
  normalisation, scale, shift and positive part, [64, 128, 128]; and the readout, [64, 128]. A change of float format
  (to bf16 in front of each matrix product) is the identity on exact values, a matrix product into zero is a finite
  sum (LibPlainMatmul.lean), the lane sum is a finite sum, and the remaining operations are entrywise or re-lay
  entries (BodyLayout.lean).
-/
import proofs.«178383_j1460288881502_1_alg».proof.Proof.Gen.KernelIdeal.Skeleton
import proofs.«178383_j1460288881502_1_alg».proof.Proof.PairScore
import proofs.«178383_j1460288881502_1_alg».proof.Proof.LibPlainMatmul
import proofs.«178383_j1460288881502_1_alg».proof.Proof.BodyLayout

noncomputable section

namespace Cert.KernelIdeal.Body

open Idealize.ShloMosaic Idealize.ShloMosaic.ValueIdx Cert.KernelIdeal Cert.KernelIdeal.Gen Cert.KernelIdeal.BodyLayout
open Cert.PairScore

/-! ## The four matrix products are plain products -/

theorem plain_x : PlainMatmul.IsPlain dot_S64x128_S128x128_S64x128_1_0_0_1_n_n := ⟨rfl, rfl, rfl, rfl, rfl, rfl⟩
theorem plain_y : PlainMatmul.IsPlain dot_S128x128_S128x128_S128x128_1_0_0_1_n_n := ⟨rfl, rfl, rfl, rfl, rfl, rfl⟩
theorem plain_d : PlainMatmul.IsPlain dot_S8192x128_S128x128_S8192x128_1_0_0_1_n_n := ⟨rfl, rfl, rfl, rfl, rfl, rfl⟩
theorem plain_o : PlainMatmul.IsPlain dot_S8192x128_S128x1_S8192x1_1_0_0_1_n_n := ⟨rfl, rfl, rfl, rfl, rfl, rfl⟩

/-- The reciprocal square root of a vector, entry by entry. -/
theorem rsqrt_apply {s : Shape} {φ : FTy} (a : FVec Ideal s φ) (i : s.Idx) : rsqrt a i = Ideal.rsqrt (a i) := rfl

/-- The absolute value of a vector, entry by entry: max (a, −a). -/
theorem absf_apply {s : Shape} {φ : FTy} (a : FVec Ideal s φ) (i : s.Idx) : absf a i = max (a i) (-(a i)) := rfl

/-! ## The loaded parameters as the body uses them -/

theorem wd_apply (wd : Vec Ideal S128x128 .f32) (d k : Fin 128) : k0_pay4 wd (ix2 d k) = wd (ix2 d k) := by
  unfold k0_pay4
  rw [shapeCast_self]
  rfl

theorem b1_eq (b : Vec Ideal S1x128 .f32) : k0_pay5 b = b := by unfold k0_pay5; exact shapeCast_self _ _
theorem g_eq (g : Vec Ideal S1x128 .f32) : k0_pay6 g = g := by unfold k0_pay6; exact shapeCast_self _ _
theorem s_eq (s : Vec Ideal S1x128 .f32) : k0_pay7 s = s := by unfold k0_pay7; exact shapeCast_self _ _
theorem w2_apply (w : Vec Ideal S128x1 .f32) (k : Fin 128) (u : Fin 1) : k0_pay8 w (ix2 k u) = w (ix2 k u) := rfl
theorem b2_eq (c : Vec Ideal S1x1 .f32) : k0_pay9 c = c := by unfold k0_pay9; exact shapeCast_self _ _

/-! ## The two projections and the absolute difference -/

/-- Row p of the x block times the first weight block. -/
theorem xproj_apply (xb : Vec Ideal S1x64x128 .f32) (wx : Vec Ideal S128x128 .f32) (p : Fin 64) (k : Fin 128) :
    k0_pay10 xb wx (ix2 p k) = ∑ d : Fin 128, xb (ix3 (0 : Fin 1) p d) * wx (ix2 d k) := by
  unfold k0_pay10 k0_pay2
  rw [shapeCast_self]
  refine (PlainMatmul.zero_apply _ plain_x _ _ p k).trans ?_
  refine Finset.sum_congr rfl fun d _ => ?_
  show shapeCast S64x128 xb shapeCasts_S1x64x128_S64x128 (ix2 p d) * wx (ix2 d k) = _
  rw [drop_lead_x]

/-- Row q of the y block times the second weight block. -/
theorem yproj_apply (yb : Vec Ideal S1x128x128 .f32) (wy : Vec Ideal S128x128 .f32) (q : Fin 128) (k : Fin 128) :
    k0_pay11 yb wy (ix2 q k) = ∑ d : Fin 128, yb (ix3 (0 : Fin 1) q d) * wy (ix2 d k) := by
  unfold k0_pay11 k0_pay3
  rw [shapeCast_self]
  refine (PlainMatmul.zero_apply _ plain_y _ _ q k).trans ?_
  refine Finset.sum_congr rfl fun d _ => ?_
  show shapeCast S128x128 yb shapeCasts_S1x128x128_S128x128 (ix2 q d) * wy (ix2 d k) = _
  rw [drop_lead_y]

/-- |x row p − y row q|, feature by feature. -/
theorem absdiff_apply (xb : Vec Ideal S1x64x128 .f32) (yb : Vec Ideal S1x128x128 .f32) (p : Fin 64) (q : Fin 128) (d : Fin 128) :
    k0_pay12 xb yb (ix3 p q d)
      = max (xb (ix3 (0 : Fin 1) p d) - yb (ix3 (0 : Fin 1) q d)) (-(xb (ix3 (0 : Fin 1) p d) - yb (ix3 (0 : Fin 1) q d))) := by
  unfold k0_pay12 k0_pay2 k0_pay3
  rw [absf_apply, subf_apply, x_rows, y_rows, drop_lead_x, drop_lead_y]

/-! ## Stage 1: the hidden layer before normalisation -/

/-- The hidden pre-activations of the tile from the two projections `xw`, `yw`, the absolute differences `ad`, the third
    weight block and the bias. -/
def preact (wd : FVec Ideal S128x128 .bf16) (b : FVec Ideal S1x128 .f32) (xw : FVec Ideal S64x128 .f32)
    (yw : FVec Ideal S128x128 .f32) (ad : FVec Ideal S64x128x128 .f32) : FVec Ideal S64x128x128 .f32 :=
  addf (addf (addf
      (broadcastTo S64x128x128 (shapeCast S64x1x128 xw shapeCasts_S64x128_S64x1x128) broadcasts_S64x1x128_S64x128x128)
      (broadcastTo S64x128x128 (shapeCast S1x128x128 yw shapeCasts_S128x128_S1x128x128) broadcasts_S1x128x128_S64x128x128))
      (shapeCast S64x128x128
        (matmul dot_S8192x128_S128x128_S8192x128_1_0_0_1_n_n none
          (shapeCast S8192x128 (truncf .bf16 ad bitsLt_bf16_f32) shapeCasts_S64x128x128_S8192x128) wd
          (constant S8192x128 .f32 0x00000000#32))
        shapeCasts_S8192x128_S64x128x128))
    (broadcastTo S64x128x128 (shapeCast S1x1x128 b shapeCasts_S1x128_S1x1x128) broadcasts_S1x1x128_S64x128x128)

theorem preact_apply (wd : FVec Ideal S128x128 .bf16) (b : FVec Ideal S1x128 .f32) (xw : FVec Ideal S64x128 .f32)
    (yw : FVec Ideal S128x128 .f32) (ad : FVec Ideal S64x128x128 .f32) (p : Fin 64) (q : Fin 128) (k : Fin 128) :
    preact wd b xw yw ad (ix3 p q k)
      = xw (ix2 p k) + yw (ix2 q k) + (∑ d : Fin 128, ad (ix3 p q d) * wd (ix2 d k)) + b (ix2 (0 : Fin 1) k) := by
  unfold preact
  rw [addf_apply, addf_apply, addf_apply, x_rows, y_rows, per_unit, unflatten_pairs, PlainMatmul.zero_apply _ plain_d]
  simp only [flatten_pairs, truncf_apply]

/-! ## Stage 2: layer normalisation, scale, shift, positive part -/

/-- Per pair, the mean over the hidden axis of a [64, 128, 128] value, kept with a unit last axis. -/
def pairMean (v : FVec Ideal S64x128x128 .f32) : FVec Ideal S64x128x1 .f32 :=
  divf (shapeCast S64x128x1
      (multiReduction .add [2] S64x128 v 0x00000000#32 reduces_S64x128x128_S64x128 (.inl rfl) rfl)
      shapeCasts_S64x128_S64x128x1)
    (broadcast S64x128x1 (Scalar.ofBits .f32 0x43000000#32))

theorem pairMean_apply (v : FVec Ideal S64x128x128 .f32) (p : Fin 64) (q : Fin 128) (u : Fin 1) :
    pairMean v (ix3 p q u) = mean (fun k => v (ix3 p q k)) :=
  congrArg (Ideal.div · (Ideal.ofBits .f32 0x43000000#32))
    ((keep_last _ shapeCasts_S64x128_S64x128x1 p q u).trans (hidden_sum v _ _ _ p q))

/-- The normalised, scaled, shifted hidden values, positive part. -/
def lnRelu (v : FVec Ideal S64x128x128 .f32) (g s : FVec Ideal S1x128 .f32) : FVec Ideal S64x128x128 .f32 :=
  have c : FVec Ideal S64x128x128 .f32 := subf v (broadcastTo S64x128x128 (pairMean v) broadcasts_S64x128x1_S64x128x128)
  maximumf
    (addf
      (mulf
        (mulf c (broadcastTo S64x128x128
          (rsqrt (addf (pairMean (mulf c c)) (broadcast S64x128x1 (Scalar.ofBits .f32 0x3727C5AC#32))))
          broadcasts_S64x128x1_S64x128x128))
        (broadcastTo S64x128x128 (shapeCast S1x1x128 g shapeCasts_S1x128_S1x1x128) broadcasts_S1x1x128_S64x128x128))
      (broadcastTo S64x128x128 (shapeCast S1x1x128 s shapeCasts_S1x128_S1x1x128) broadcasts_S1x1x128_S64x128x128))
    (broadcast S64x128x128 (Scalar.ofBits .f32 0x00000000#32))

theorem lnRelu_apply (v : FVec Ideal S64x128x128 .f32) (g s : FVec Ideal S1x128 .f32) (p : Fin 64) (q : Fin 128) (k : Fin 128) :
    lnRelu v g s (ix3 p q k)
      = normRelu (fun k' => v (ix3 p q k')) (fun k' => g (ix2 (0 : Fin 1) k')) (fun k' => s (ix2 (0 : Fin 1) k')) k := by
  unfold lnRelu
  simp only [maximumf_apply, addf_apply, mulf_apply, subf_apply, broadcast_apply, rsqrt_apply, per_pair, per_unit,
    pairMean_apply]
  rfl

/-! ## Stage 3: the readout -/

/-- The tile's scores from the activations `a`, the output weights and the output bias. -/
def readoutTile (a : FVec Ideal S64x128x128 .f32) (w : FVec Ideal S128x1 .bf16) (c : FVec Ideal S1x1 .f32) : FVec Ideal S64x128 .f32 :=
  maximumf
    (addf
      (shapeCast S64x128
        (matmul dot_S8192x128_S128x1_S8192x1_1_0_0_1_n_n none
          (shapeCast S8192x128 (truncf .bf16 a bitsLt_bf16_f32) shapeCasts_S64x128x128_S8192x128) w
          (constant S8192x1 .f32 0x00000000#32))
        shapeCasts_S8192x1_S64x128)
      (broadcastTo S64x128 c broadcasts_S1x1_S64x128))
    (broadcast S64x128 (Scalar.ofBits .f32 0x00000000#32))

theorem readoutTile_apply (a : FVec Ideal S64x128x128 .f32) (w : FVec Ideal S128x1 .bf16) (c : FVec Ideal S1x1 .f32) (p : Fin 64) (q : Fin 128) :
    readoutTile a w c (ix2 p q)
      = readout (fun k => a (ix3 p q k)) (fun k => w (ix2 k (0 : Fin 1))) (c (ix2 (0 : Fin 1) (0 : Fin 1))) := by
  unfold readoutTile
  rw [maximumf_apply, addf_apply, unflatten_column, one_entry, PlainMatmul.zero_apply _ plain_o]
  simp only [flatten_pairs, truncf_apply]
  rfl

/-! ## The body is the three stages, and the tile's entry is the pair's score -/

theorem stages (v12 : FVec Ideal S128x128 .bf16) (v14 v16 v18 : FVec Ideal S1x128 .f32) (v20 : FVec Ideal S128x1 .bf16)
    (v22 : FVec Ideal S1x1 .f32) (v25 : FVec Ideal S64x128 .f32) (v26 : FVec Ideal S128x128 .f32) (v32 : FVec Ideal S64x128x128 .f32) :
    k0_pay13 v12 v14 v16 v18 v20 v22 v25 v26 v32 = readoutTile (lnRelu (preact v12 v14 v25 v26 v32) v16 v18) v20 v22 := rfl

/-- THE TILE ENTRY at pair (p, q): the score of row p of the x block against row q of the y block. -/
theorem tile_apply (xb : Vec Ideal S1x64x128 .f32) (yb : Vec Ideal S1x128x128 .f32) (wx wy wd : Vec Ideal S128x128 .f32)
    (b g s : Vec Ideal S1x128 .f32) (w : Vec Ideal S128x1 .f32) (c : Vec Ideal S1x1 .f32) (p : Fin 64) (q : Fin 128) :
    k0_pay13 (k0_pay4 wd) (k0_pay5 b) (k0_pay6 g) (k0_pay7 s) (k0_pay8 w) (k0_pay9 c) (k0_pay10 xb wx) (k0_pay11 yb wy)
        (k0_pay12 xb yb) (ix2 p q)
      = score (fun d => xb (ix3 (0 : Fin 1) p d)) (fun d => yb (ix3 (0 : Fin 1) q d))
          (fun d k => wx (ix2 d k)) (fun d k => wy (ix2 d k)) (fun d k => wd (ix2 d k))
          (fun k => b (ix2 (0 : Fin 1) k)) (fun k => g (ix2 (0 : Fin 1) k)) (fun k => s (ix2 (0 : Fin 1) k))
          (fun k => w (ix2 k (0 : Fin 1))) (c (ix2 (0 : Fin 1) (0 : Fin 1))) := by
  rw [stages, readoutTile_apply, b1_eq, g_eq, s_eq, b2_eq]
  simp only [lnRelu_apply, preact_apply, xproj_apply, yproj_apply, absdiff_apply, wd_apply, w2_apply]
  rfl

end Cert.KernelIdeal.Body

end
-- ==== Proof.Scores.lean ====
/-
  The result as ONE function of the argument arrays.

  Entry (a, b, c) of the result is the pair score (PairScore.lean) of row (a, b) of x against row (a, c) of y: the
  first layer's weight matrix W1 is used as its three 128-row blocks (rows d, 128 + d, 256 + d), every other
  parameter entry by entry.
-/
import proofs.«178383_j1460288881502_1_alg».proof.Proof.PairScore
import Idealize.ShloMosaic.Lib.ValueIdx

noncomputable section

namespace Cert.PairScore

open Idealize.ShloMosaic Idealize.ShloMosaic.ValueIdx

/-- Row d of the first, second and third 128-row block of the [384, 128] weight matrix. -/
abbrev rowA (d : Fin 128) : Fin 384 := ⟨d.val, by have := d.isLt; omega⟩
abbrev rowB (d : Fin 128) : Fin 384 := ⟨128 + d.val, by have := d.isLt; omega⟩
abbrev rowC (d : Fin 128) : Fin 384 := ⟨256 + d.val, by have := d.isLt; omega⟩

variable (x y : (⟨3, ![4, 512, 128]⟩ : Shape).Idx → EReal) (W1 : (⟨2, ![384, 128]⟩ : Shape).Idx → EReal)
  (b1 g s : (⟨1, ![128]⟩ : Shape).Idx → EReal) (W2 : (⟨2, ![128, 1]⟩ : Shape).Idx → EReal) (b2 : (⟨1, ![1]⟩ : Shape).Idx → EReal)

/-- The hidden layer (before normalisation) of the pair: batch a, row b of x, row c of y. -/
def hiddenOf (a : Fin 4) (b c : Fin 512) : Fin 128 → EReal :=
  hidden (fun d => x (ix3 a b d)) (fun d => y (ix3 a c d)) (fun d k => W1 (ix2 (rowA d) k)) (fun d k => W1 (ix2 (rowB d) k))
    (fun d k => W1 (ix2 (rowC d) k)) (fun k => b1 (ix1 k))

/-- The whole result: the score of every pair. -/
def scores : (⟨3, ![4, 512, 512]⟩ : Shape).Idx → EReal := fun i =>
  readout (normRelu (hiddenOf x y W1 b1 (i 0) (i 1) (i 2)) (fun k => g (ix1 k)) (fun k => s (ix1 k)))
    (fun k => W2 (ix2 k (0 : Fin 1))) (b2 (ix1 (0 : Fin 1)))

end Cert.PairScore

end
-- ==== Proof.TileValue.lean ====
/-
  From tiles to the whole result array.

  The grid has 4 × 8 × 4 points; point (a, n, m) stages rows 64n … 64n + 63 of batch a of x, rows 128m … 128m + 127 of
  batch a of y, and every parameter whole, and writes back the [64, 128] tile at (a, 64n, 128m) of the result. So
  entry (p, q) of the tile is the pair score of row 64n + p of x against row 128m + q of y (KernelBody.lean), which is
  `scores` at (a, 64n + p, 128m + q); the tiles cover the result, hence the result array ends at `scores` of the
  arguments. Before the region the host cuts the first layer's weight matrix into its three row blocks and adds a unit
  axis to the bias, scale, shift and output bias: each window's array is read back to the argument it came from.
-/
import proofs.«178383_j1460288881502_1_alg».proof.Proof.Gen.KernelIdeal.Value
import proofs.«178383_j1460288881502_1_alg».proof.Proof.KernelBody
import proofs.«178383_j1460288881502_1_alg».proof.Proof.Scores
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Tiles

open Cert.KernelIdeal Cert.KernelIdeal.Gen Idealize.ShloMosaic.ValueIdx Cert.PairScore

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The arguments, and the result as one function of them -/

abbrev argX (c : Dev nD) : S4x512x128.Idx → EReal := m ((c : Thread nD τ).loc main_arg0)
abbrev argY (c : Dev nD) : S4x512x128.Idx → EReal := m ((c : Thread nD τ).loc main_arg1)
abbrev argW1 (c : Dev nD) : S384x128.Idx → EReal := m ((c : Thread nD τ).loc main_arg2)
abbrev argB1 (c : Dev nD) : S128.Idx → EReal := m ((c : Thread nD τ).loc main_arg3)
abbrev argG (c : Dev nD) : S128.Idx → EReal := m ((c : Thread nD τ).loc main_arg4)
abbrev argS (c : Dev nD) : S128.Idx → EReal := m ((c : Thread nD τ).loc main_arg5)
abbrev argW2 (c : Dev nD) : S128x1.Idx → EReal := m ((c : Thread nD τ).loc main_arg6)
abbrev argB2 (c : Dev nD) : S1.Idx → EReal := m ((c : Thread nD τ).loc main_arg7)

/-- The result: every pair's score. -/
abbrev result (c : Dev nD) : S4x512x512.Idx → EReal :=
  scores (argX m c) (argY m c) (argW1 m c) (argB1 m c) (argG m c) (argS m c) (argW2 m c) (argB2 m c)

/-! ## What each window's array holds when the region is entered -/

theorem wa_array (c : Dev nD) : (V m c main_v0 : S128x128.Idx → EReal)
    = extractStridedSlice S128x128 ![0, 0] (argW1 m c) slices_S384x128_S128x128_0_0 := by
  dsimp only [V, hostOps0]; after_results <;> rfl

theorem wb_array (c : Dev nD) : (V m c main_v1 : S128x128.Idx → EReal)
    = extractStridedSlice S128x128 ![128, 0] (argW1 m c) slices_S384x128_S128x128_128_0 := by
  dsimp only [V, hostOps0]; after_results <;> rfl

theorem wc_array (c : Dev nD) : (V m c main_v2 : S128x128.Idx → EReal)
    = extractStridedSlice S128x128 ![256, 0] (argW1 m c) slices_S384x128_S128x128_256_0 := by
  dsimp only [V, hostOps0]; after_results <;> rfl

theorem b1_array (c : Dev nD) : (V m c main_v3 : S1x128.Idx → EReal) = shapeCast S1x128 (argB1 m c) shapeCasts_S128_S1x128 := by
  dsimp only [V, hostOps0]; after_results <;> rfl

theorem g_array (c : Dev nD) : (V m c main_v4 : S1x128.Idx → EReal) = shapeCast S1x128 (argG m c) shapeCasts_S128_S1x128 := by
  dsimp only [V, hostOps0]; after_results <;> rfl

theorem s_array (c : Dev nD) : (V m c main_v5 : S1x128.Idx → EReal) = shapeCast S1x128 (argS m c) shapeCasts_S128_S1x128 := by
  dsimp only [V, hostOps0]; after_results <;> rfl

theorem b2_array (c : Dev nD) : (V m c main_v6 : S1x1.Idx → EReal) = shapeCast S1x1 (argB2 m c) shapeCasts_S1_S1x1 := by
  dsimp only [V, hostOps0]; after_results <;> rfl

/-! ## The index maps, decided over the 128 grid points -/

/-- The x window follows the output tile's batch and row block, the y window its batch and column block, on whole
    rows; the parameter windows never move; the output's block indices stay in their ranges. -/
theorem idx_facts : ∀ t : Fin cfg0.N,
    win0_0.index t (0 : Fin 3) = win0_10.index t (0 : Fin 3) ∧ win0_0.index t (1 : Fin 3) = win0_10.index t (1 : Fin 3)
    ∧ win0_0.index t (2 : Fin 3) = 0
    ∧ win0_1.index t (0 : Fin 3) = win0_10.index t (0 : Fin 3) ∧ win0_1.index t (1 : Fin 3) = win0_10.index t (2 : Fin 3)
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Every tile position is some grid point's. -/
theorem idx_onto : ∀ (q0 : Fin 4) (q1 : Fin 8) (q2 : Fin 4), ∃ t : Fin cfg0.N, win0_10.index t = ![q0.val, q1.val, q2.val] :=
  (by decide +kernel : ∀ (q0 : Fin 4) (q1 : Fin 8) (q2 : Fin 4), ∃ t : Fin grid0.N, win0_10.index t = ![q0.val, q1.val, q2.val])

/-! ## Each staged block's entries are entries of the arguments -/

variable (c : Dev nD) (t : Fin cfg0.N)

/-- Row p of the staged x block is row (a, b) of x when (a, b) is where the output tile's row p lies. -/
theorem x_entry (p : Fin 64) (d : Fin 128) (a : Fin 4) (b : Fin 512)
    (ha : a.val = win0_10.index t (0 : Fin 3)) (hb : b.val = win0_10.index t (1 : Fin 3) * 64 + p.val) :
    (iblk m c 0 t : Vec Ideal S1x64x128 .f32) (ix3 (0 : Fin 1) p d) = argX m c (ix3 a b d) := by
  obtain ⟨e0, e1, e2, -⟩ := idx_facts t
  unfold iblk
  rw [View.read_apply]
  show V m c main_arg0 _ = argX m c _
  rw [V_main_arg0]
  show argX m c _ = argX m c _
  congr 1
  funext z
  apply Fin.ext
  match z with
  | ⟨0, _⟩ => show win0_0.index t (0 : Fin 3) * 1 + 1 * 0 = a.val; omega
  | ⟨1, _⟩ => show win0_0.index t (1 : Fin 3) * 64 + 1 * p.val = b.val; omega
  | ⟨2, _⟩ => show win0_0.index t (2 : Fin 3) * 128 + 1 * d.val = d.val; omega

/-- Row q of the staged y block is row (a, c') of y when (a, c') is where the output tile's column q lies. -/
theorem y_entry (q : Fin 128) (d : Fin 128) (a : Fin 4) (c' : Fin 512)
    (ha : a.val = win0_10.index t (0 : Fin 3)) (hc : c'.val = win0_10.index t (2 : Fin 3) * 128 + q.val) :
    (iblk m c 1 t : Vec Ideal S1x128x128 .f32) (ix3 (0 : Fin 1) q d) = argY m c (ix3 a c' d) := by
  obtain ⟨-, -, -, e0, e1, e2, -⟩ := idx_facts t
  unfold iblk
  rw [View.read_apply]
  show V m c main_arg1 _ = argY m c _
  rw [V_main_arg1]
  show argY m c _ = argY m c _
  congr 1
  funext z
  apply Fin.ext
  match z with
  | ⟨0, _⟩ => show win0_1.index t (0 : Fin 3) * 1 + 1 * 0 = a.val; omega
  | ⟨1, _⟩ => show win0_1.index t (1 : Fin 3) * 128 + 1 * q.val = c'.val; omega
  | ⟨2, _⟩ => show win0_1.index t (2 : Fin 3) * 128 + 1 * d.val = d.val; omega

/-- The first staged weight block is rows 0 … 127 of the weight matrix. -/
theorem wa_entry (d k : Fin 128) : (iblk m c 2 t : Vec Ideal S128x128 .f32) (ix2 d k) = argW1 m c (ix2 (rowA d) k) := by
  obtain ⟨-, -, -, -, -, -, e0, e1, -⟩ := idx_facts t
  unfold iblk
  rw [View.read_apply]
  show V m c main_v0 _ = _
  rw [wa_array]
  refine extractStridedSlice_apply _ _ _ _ _ fun z => ?_
  match z with
  | ⟨0, _⟩ => show d.val = 0 + (win0_2.index t (0 : Fin 2) * 128 + 1 * d.val); omega
  | ⟨1, _⟩ => show k.val = 0 + (win0_2.index t (1 : Fin 2) * 128 + 1 * k.val); omega

/-- The second staged weight block is rows 128 … 255. -/
theorem wb_entry (d k : Fin 128) : (iblk m c 3 t : Vec Ideal S128x128 .f32) (ix2 d k) = argW1 m c (ix2 (rowB d) k) := by
  obtain ⟨-, -, -, -, -, -, -, -, e0, e1, -⟩ := idx_facts t
  unfold iblk
  rw [View.read_apply]
  show V m c main_v1 _ = _
  rw [wb_array]
  refine extractStridedSlice_apply _ _ _ _ _ fun z => ?_
  match z with
  | ⟨0, _⟩ => show 128 + d.val = 128 + (win0_3.index t (0 : Fin 2) * 128 + 1 * d.val); omega
  | ⟨1, _⟩ => show k.val = 0 + (win0_3.index t (1 : Fin 2) * 128 + 1 * k.val); omega

/-- The third staged weight block is rows 256 … 383. -/
theorem wc_entry (d k : Fin 128) : (iblk m c 4 t : Vec Ideal S128x128 .f32) (ix2 d k) = argW1 m c (ix2 (rowC d) k) := by
  obtain ⟨-, -, -, -, -, -, -, -, -, -, e0, e1, -⟩ := idx_facts t
  unfold iblk
  rw [View.read_apply]
  show V m c main_v2 _ = _
  rw [wc_array]
  refine extractStridedSlice_apply _ _ _ _ _ fun z => ?_
  match z with
  | ⟨0, _⟩ => show 256 + d.val = 256 + (win0_4.index t (0 : Fin 2) * 128 + 1 * d.val); omega
  | ⟨1, _⟩ => show k.val = 0 + (win0_4.index t (1 : Fin 2) * 128 + 1 * k.val); omega

/-- A [128] parameter reshaped to [1, 128] and staged whole: entry (0, k) is entry k. -/
theorem unit_row (v : S128.Idx → EReal) (h : S128.ShapeCasts S1x128) (i : S1x128.Idx) (k : Fin 128) (h0 : (i 0).val = 0)
    (h1 : (i 1).val = k.val) : shapeCast S1x128 v h i = v (ix1 k) :=
  shapeCast_apply v h _ _ (by
    rw [Shape.rowMajor_val_one, Shape.rowMajor_val_two]
    show k.val = (i 0).val * 128 + (i 1).val
    omega)

theorem b1_entry (k : Fin 128) : (iblk m c 5 t : Vec Ideal S1x128 .f32) (ix2 (0 : Fin 1) k) = argB1 m c (ix1 k) := by
  obtain ⟨-, -, -, -, -, -, -, -, -, -, -, -, e0, e1, -⟩ := idx_facts t
  unfold iblk
  rw [View.read_apply]
  show V m c main_v3 _ = _
  rw [b1_array]
  refine unit_row _ _ _ k ?_ ?_
  · show win0_5.index t (0 : Fin 2) * 1 + 1 * 0 = 0; omega
  · show win0_5.index t (1 : Fin 2) * 128 + 1 * k.val = k.val; omega

theorem g_entry (k : Fin 128) : (iblk m c 6 t : Vec Ideal S1x128 .f32) (ix2 (0 : Fin 1) k) = argG m c (ix1 k) := by
  obtain ⟨-, -, -, -, -, -, -, -, -, -, -, -, -, -, e0, e1, -⟩ := idx_facts t
  unfold iblk
  rw [View.read_apply]
  show V m c main_v4 _ = _
  rw [g_array]
  refine unit_row _ _ _ k ?_ ?_
  · show win0_6.index t (0 : Fin 2) * 1 + 1 * 0 = 0; omega
  · show win0_6.index t (1 : Fin 2) * 128 + 1 * k.val = k.val; omega

theorem s_entry (k : Fin 128) : (iblk m c 7 t : Vec Ideal S1x128 .f32) (ix2 (0 : Fin 1) k) = argS m c (ix1 k) := by
  obtain ⟨-, -, -, -, -, -, -, -, -, -, -, -, -, -, -, -, e0, e1, -⟩ := idx_facts t
  unfold iblk
  rw [View.read_apply]
  show V m c main_v5 _ = _
  rw [s_array]
  refine unit_row _ _ _ k ?_ ?_
  · show win0_7.index t (0 : Fin 2) * 1 + 1 * 0 = 0; omega
  · show win0_7.index t (1 : Fin 2) * 128 + 1 * k.val = k.val; omega

/-- The output weights are staged whole, as launched. -/
theorem w2_entry (k : Fin 128) : (iblk m c 8 t : Vec Ideal S128x1 .f32) (ix2 k (0 : Fin 1)) = argW2 m c (ix2 k (0 : Fin 1)) := by
  obtain ⟨-, -, -, -, -, -, -, -, -, -, -, -, -, -, -, -, -, -, e0, e1, -⟩ := idx_facts t
  unfold iblk
  rw [View.read_apply]
  show V m c main_arg6 _ = argW2 m c _
  rw [V_main_arg6]
  show argW2 m c _ = argW2 m c _
  congr 1
  funext z
  apply Fin.ext
  match z with
  | ⟨0, _⟩ => show win0_8.index t (0 : Fin 2) * 128 + 1 * k.val = k.val; omega
  | ⟨1, _⟩ => show win0_8.index t (1 : Fin 2) * 1 + 1 * 0 = 0; omega

/-- The output bias reshaped to [1, 1]. -/
theorem b2_entry : (iblk m c 9 t : Vec Ideal S1x1 .f32) (ix2 (0 : Fin 1) (0 : Fin 1)) = argB2 m c (ix1 (0 : Fin 1)) := by
  obtain ⟨-, -, -, -, -, -, -, -, -, -, -, -, -, -, -, -, -, -, -, -, e0, e1⟩ := idx_facts t
  unfold iblk
  rw [View.read_apply]
  show V m c main_v6 _ = _
  rw [b2_array]
  refine shapeCast_apply _ _ _ _ ?_
  rw [Shape.rowMajor_val_one, Shape.rowMajor_val_two]
  show 0 = (win0_9.index t (0 : Fin 2) * 1 + 1 * 0) * 1 + (win0_9.index t (1 : Fin 2) * 1 + 1 * 0)
  omega

/-! ## What a grid point writes back -/

/-- Equal rows and parameters give equal scores. -/
theorem score_congr {X X' Y Y' : Fin 128 → EReal} {A A' B B' C C' : Fin 128 → Fin 128 → EReal} {b b' g g' s s' w w' : Fin 128 → EReal}
    {e e' : EReal} (hX : ∀ d, X d = X' d) (hY : ∀ d, Y d = Y' d) (hA : ∀ d k, A d k = A' d k) (hB : ∀ d k, B d k = B' d k)
    (hC : ∀ d k, C d k = C' d k) (hb : ∀ k, b k = b' k) (hg : ∀ k, g k = g' k) (hs : ∀ k, s k = s' k) (hw : ∀ k, w k = w' k)
    (he : e = e') : score X Y A B C b g s w e = score X' Y' A' B' C' b' g' s' w' e' := by
  obtain rfl : X = X' := funext hX
  obtain rfl : Y = Y' := funext hY
  obtain rfl : A = A' := funext fun d => funext (hA d)
  obtain rfl : B = B' := funext fun d => funext (hB d)
  obtain rfl : C = C' := funext fun d => funext (hC d)
  obtain rfl : b = b' := funext hb
  obtain rfl : g = g' := funext hg
  obtain rfl : s = s' := funext hs
  obtain rfl : w = w' := funext hw
  rw [he]

/-- `scores` at an entry is that pair's score. -/
theorem scores_at (x y : S4x512x128.Idx → EReal) (W1 : S384x128.Idx → EReal) (b1 g s : S128.Idx → EReal) (W2 : S128x1.Idx → EReal)
    (b2 : S1.Idx → EReal) (a : Fin 4) (b c' : Fin 512) :
    scores x y W1 b1 g s W2 b2 (ix3 a b c')
      = score (fun d => x (ix3 a b d)) (fun d => y (ix3 a c' d)) (fun d k => W1 (ix2 (rowA d) k)) (fun d k => W1 (ix2 (rowB d) k))
          (fun d k => W1 (ix2 (rowC d) k)) (fun k => b1 (ix1 k)) (fun k => g (ix1 k)) (fun k => s (ix1 k))
          (fun k => W2 (ix2 k (0 : Fin 1))) (b2 (ix1 (0 : Fin 1))) := rfl

/-- A [1, 64, 128] value whose entries are `G`'s entries under the output tile is the tile of `G`. -/
theorem tile_of_entries (B : Vec Ideal S1x64x128 .f32) (G : S4x512x512.Idx → EReal)
    (h : ∀ (u : Fin 1) (p : Fin 64) (q : Fin 128), B (ix3 u p q) = G (((cfg0.win 10).blk t).view.emb (ix3 u p q))) :
    (cfg0.win 10).cut (grid0.coords t) B = ((cfg0.win 10).blk t).view.read (Elt Ideal) G := by
  refine funext fun (j : S1x64x128.Idx) => ?_
  obtain ⟨u, p, q, rfl⟩ : ∃ (u : Fin 1) (p : Fin 64) (q : Fin 128), j = ix3 u p q := ⟨j 0, j 1, j 2, eq_ix3 j⟩
  exact h u p q

/-- WHAT POINT `t` WRITES BACK is tile `t` of `result`. -/
theorem flushed_eq : (dats m 0 c).flushed 10 t = ((cfg0.win 10).blk t).view.read (Elt Ideal) (result m c) := by
  rw [Cert.KernelIdeal.Value.flushed10]
  unfold out0_10
  rw [View.canon_unit_zero hz3]
  simp only [View.ld_unit_zero (S := S1x64x128) hz3, View.ld_unit_zero (S := S1x128x128) hz3, View.ld_unit_zero (S := S128x128) hz2,
    View.ld_unit_zero (S := S1x128) hz2, View.ld_unit_zero (S := S128x1) hz2, View.ld_unit_zero (S := S1x1) hz2]
  refine tile_of_entries t _ _ fun u p q => ?_
  obtain ⟨a, b, c', he⟩ : ∃ (a : Fin 4) (b c' : Fin 512), ((cfg0.win 10).blk t).view.emb (ix3 u p q) = ix3 a b c' :=
    ⟨_, _, _, eq_ix3 _⟩
  have hu : u.val = 0 := by omega
  have ha : a.val = win0_10.index t (0 : Fin 3) := by
    have := congrArg (fun i : S4x512x512.Idx => (i 0).val) he
    have h' : win0_10.index t (0 : Fin 3) * 1 + 1 * u.val = a.val := this
    omega
  have hb : b.val = win0_10.index t (1 : Fin 3) * 64 + p.val := by
    have := congrArg (fun i : S4x512x512.Idx => (i 1).val) he
    have h' : win0_10.index t (1 : Fin 3) * 64 + 1 * p.val = b.val := this
    omega
  have hc : c'.val = win0_10.index t (2 : Fin 3) * 128 + q.val := by
    have := congrArg (fun i : S4x512x512.Idx => (i 2).val) he
    have h' : win0_10.index t (2 : Fin 3) * 128 + 1 * q.val = c'.val := this
    omega
  rw [he]
  refine ((BodyLayout.add_lead_out _ shapeCasts_S64x128_S1x64x128 u p q).trans
    (Body.tile_apply (iblk m c 0 t) (iblk m c 1 t) (iblk m c 2 t) (iblk m c 3 t) (iblk m c 4 t) (iblk m c 5 t) (iblk m c 6 t)
      (iblk m c 7 t) (iblk m c 8 t) (iblk m c 9 t) p q)).trans ?_
  refine (score_congr (fun d => x_entry m c t p d a b ha hb) (fun d => y_entry m c t q d a c' ha hc) (fun d k => wa_entry m c t d k)
    (fun d k => wb_entry m c t d k) (fun d k => wc_entry m c t d k) (fun k => b1_entry m c t k) (fun k => g_entry m c t k)
    (fun k => s_entry m c t k) (fun k => w2_entry m c t k) (b2_entry m c t)).trans ?_
  exact (scores_at (argX m c) (argY m c) (argW1 m c) (argB1 m c) (argG m c) (argS m c) (argW2 m c) (argB2 m c) a b c').symm

/-! ## The tiles cover the result -/

/-- An index of the result is in point `t`'s tile iff each coordinate is in the tile's range on its axis. -/
theorem mem_tile (i : S4x512x512.Idx) :
    i ∈ ((cfg0.win 10).blk t).view.set ↔ ∀ z : Fin 3, win0_10.index t z * S1x64x128.size z ≤ (i z).val
      ∧ (i z).val < win0_10.index t z * S1x64x128.size z + S1x64x128.size z := by
  show i ∈ ((View.whole main_v7).slice (win0_10.rect t)).set ↔ _
  rw [View.set_slice_whole, Rect.mem_set_unit]
  exact Iff.rfl

theorem covered (i : S4x512x512.Idx) : ∃ t : Fin cfg0.N, (cfg0.win 10).flush t = true ∧ i ∈ ((cfg0.win 10).blk t).view.set := by
  have hi0 : (i 0).val < 4 := (i 0).isLt
  have hi1 : (i 1).val < 512 := (i 1).isLt
  have hi2 : (i 2).val < 512 := (i 2).isLt
  obtain ⟨t, ht⟩ := idx_onto ⟨(i 0).val, hi0⟩ ⟨(i 1).val / 64, by omega⟩ ⟨(i 2).val / 128, by omega⟩
  have q0 : win0_10.index t (0 : Fin 3) = (i 0).val := congrFun ht 0
  have q1 : win0_10.index t (1 : Fin 3) = (i 1).val / 64 := congrFun ht 1
  have q2 : win0_10.index t (2 : Fin 3) = (i 2).val / 128 := congrFun ht 2
  refine ⟨t, flush0_10 t, ?_⟩
  rw [mem_tile]
  intro z
  match z with
  | ⟨0, _⟩ => show win0_10.index t (0 : Fin 3) * 1 ≤ (i 0).val ∧ (i 0).val < win0_10.index t (0 : Fin 3) * 1 + 1; omega
  | ⟨1, _⟩ => show win0_10.index t (1 : Fin 3) * 64 ≤ (i 1).val ∧ (i 1).val < win0_10.index t (1 : Fin 3) * 64 + 64; omega
  | ⟨2, _⟩ => show win0_10.index t (2 : Fin 3) * 128 ≤ (i 2).val ∧ (i 2).val < win0_10.index t (2 : Fin 3) * 128 + 128; omega

/-- THE RESULT ARRAY after the run is `result`. -/
theorem final : (dats m 0 c).arrAt 10 cfg0.N = result m c :=
  (dats m 0 c).arrAt_eq_of_cover 10 (result m c) (fun t _ => flushed_eq m c t) covered

/-- The kernel's run: the result array at `result` of the arguments, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.Tiles

end
-- ==== Proof.RefScores.lean ====
/-
  The reference computes `scores`.

  The reference's program is read one operation at a time by the generated stage lemmas; what is added here is
  where each stage reads its operands once the broadcasts are followed back — every broadcast keeps the coordinates
  it has, a slice of the weight matrix shifts the row by 0, 128 or 256 — and that the host's sums start from the
  constant zero. Four stages: the hidden layer at a pair and hidden unit; a pair's mean; a pair's variance; the
  normalised activation; then the readout.
-/
import proofs.«178383_j1460288881502_1_alg».proof.Proof.Gen.ReferenceIdeal.Read
import proofs.«178383_j1460288881502_1_alg».proof.Proof.Scores

noncomputable section

namespace Cert.ReferenceIdeal.RefScores

open Idealize.ShloMosaic Idealize.ShloMosaic.ValueIdx Cert.ReferenceIdeal Cert.ReferenceIdeal.Read Cert.PairScore

local macro "coords1" : tactic => `(tactic| (funext z; match z with | ⟨0, _⟩ => rfl))
local macro "coords2" : tactic => `(tactic| (funext z; match z with | ⟨0, _⟩ => rfl | ⟨1, _⟩ => rfl))
local macro "coords3" : tactic => `(tactic| (funext z; match z with | ⟨0, _⟩ => rfl | ⟨1, _⟩ => rfl | ⟨2, _⟩ => rfl))
local macro "coords4" : tactic =>
  `(tactic| (funext z; match z with | ⟨0, _⟩ => rfl | ⟨1, _⟩ => rfl | ⟨2, _⟩ => rfl | ⟨3, _⟩ => rfl))

variable (a : Fin 4) (b c : Fin 512) (k d : Fin 128) (u : Fin 1)

/-! ## Where each stage reads -/

theorem x_in_proj : lidx_main_v9 (idx_main_v10 (idx_main_v13 (ix4 a b c k))) d = ix3 a b d := by coords3
theorem wa_in_proj : idx_main_v6 (ridx_main_v9 (idx_main_v10 (idx_main_v13 (ix4 a b c k))) d) = ix2 (rowA d) k := by coords2
theorem y_in_proj : lidx_main_v11 (idx_main_v12 (idx_main_v14 (ix4 a b c k))) d = ix3 a c d := by coords3
theorem wb_in_proj : idx_main_v7 (ridx_main_v11 (idx_main_v12 (idx_main_v14 (ix4 a b c k))) d) = ix2 (rowB d) k := by coords2
theorem x_in_diff : idx_main_v0 (idx_main_v2 (lidx_main_v16 (ix4 a b c k) d)) = ix3 a b d := by coords3
theorem y_in_diff : idx_main_v1 (idx_main_v3 (lidx_main_v16 (ix4 a b c k) d)) = ix3 a c d := by coords3
theorem wc_in_proj : idx_main_v8 (ridx_main_v16 (ix4 a b c k) d) = ix2 (rowC d) k := by coords2
theorem bias_at : idx_main_v18 (idx_main_v19 (ix4 a b c k)) = ix1 k := by coords1
theorem mean_reads : idx_main_v21 (idx_main_v22 (ix4 a b c u)) k = ix4 a b c k := by coords4
theorem var_reads : idx_main_v28 (idx_main_v29 (ix4 a b c u)) k = ix4 a b c k := by coords4
theorem mean_in_var : idx_main_v25 (ix4 a b c k) = ix4 a b c (0 : Fin 1) := by coords4
theorem mean_in_norm : idx_main_v32 (ix4 a b c k) = ix4 a b c (0 : Fin 1) := by coords4
theorem scale_in_norm : idx_main_v37 (ix4 a b c k) = ix4 a b c (0 : Fin 1) := by coords4
theorem gain_at : idx_main_v39 (idx_main_v40 (ix4 a b c k)) = ix1 k := by coords1
theorem shift_at : idx_main_v42 (idx_main_v43 (ix4 a b c k)) = ix1 k := by coords1
theorem act_in_out : lidx_main_v46 (ix4 a b c u) k = ix4 a b c k := by coords4
theorem w2_in_out : ridx_main_v46 (ix4 a b c u) k = ix2 k u := by coords2
theorem b2_at (i : S4x512x512x1.Idx) : idx_main_v47 (idx_main_v48 i) = ix1 (0 : Fin 1) := by coords1

/-- The closing reshape [4, 512, 512, 1] → [4, 512, 512] keeps the three coordinates. -/
theorem out_reads : idx_main_v51 (ix3 a b c) = ix4 a b c (0 : Fin 1) := by
  funext z; apply Fin.ext
  have h0 : a.val < 4 := a.isLt
  have h1 : b.val < 512 := b.isLt
  have h2 : c.val < 512 := c.isLt
  match z with
  | ⟨0, _⟩ => show ((a.val * 512 + b.val) * 512 + c.val) / 262144 = a.val; omega
  | ⟨1, _⟩ => show ((a.val * 512 + b.val) * 512 + c.val) / 512 % 512 = b.val; omega
  | ⟨2, _⟩ => show ((a.val * 512 + b.val) * 512 + c.val) / 1 % 512 = c.val; omega
  | ⟨3, _⟩ => rfl

/-! ## The stages -/

variable (x y : (⟨S4x512x128, .f32⟩ : BufTy).Contents (Elt Ideal)) (W1 : (⟨S384x128, .f32⟩ : BufTy).Contents (Elt Ideal))
  (b1 g s : (⟨S128, .f32⟩ : BufTy).Contents (Elt Ideal)) (W2 : (⟨S128x1, .f32⟩ : BufTy).Contents (Elt Ideal))
  (b2 : (⟨S1, .f32⟩ : BufTy).Contents (Elt Ideal))

/-- The hidden layer before normalisation, at pair (a; b, c) and hidden unit k. -/
theorem hidden_ref : val_main_v20 (F := Ideal) x y W1 b1 (ix4 a b c k) = hiddenOf x y W1 b1 a b c k := by
  rw [val_main_v20_apply, val_main_v17_apply, val_main_v15_apply, val_main_v13_apply, val_main_v10_apply, val_main_v9_apply,
    val_main_v14_apply, val_main_v12_apply, val_main_v11_apply, val_main_v16_apply, val_main_v19_apply, val_main_v18_apply]
  simp only [val_main_v6_apply, val_main_v7_apply, val_main_v8_apply, val_main_v5_apply, val_main_v4_apply, val_main_v2_apply,
    val_main_v0_apply, val_main_v3_apply, val_main_v1_apply, x_in_proj, wa_in_proj, y_in_proj, wb_in_proj, x_in_diff, y_in_diff,
    wc_in_proj, bias_at]
  rfl

/-- A pair's mean over the hidden axis. -/
theorem mean_ref : val_main_v24 (F := Ideal) x y W1 b1 (ix4 a b c u) = mean (hiddenOf x y W1 b1 a b c) := by
  rw [val_main_v24_apply, val_main_v22_apply, val_main_v21_apply, val_main_v23_apply]
  simp only [mean_reads, hidden_ref]
  show Ideal.div (Ideal.ofBits .f32 0x00000000#32 + _) _ = _
  rw [Ideal.ofBits_zero_f32, zero_add]
  rfl

/-- A pair's variance over the hidden axis. -/
theorem var_ref : val_main_v31 (F := Ideal) x y W1 b1 (ix4 a b c u)
    = mean (fun k' => (hiddenOf x y W1 b1 a b c k' - mean (hiddenOf x y W1 b1 a b c))
        * (hiddenOf x y W1 b1 a b c k' - mean (hiddenOf x y W1 b1 a b c))) := by
  rw [val_main_v31_apply, val_main_v29_apply, val_main_v28_apply, val_main_v30_apply]
  simp only [var_reads, val_main_v27_apply, val_main_v26_apply, val_main_v25_apply, mean_in_var, mean_ref, hidden_ref]
  show Ideal.div (Ideal.ofBits .f32 0x00000000#32 + _) _ = _
  rw [Ideal.ofBits_zero_f32, zero_add]
  rfl

/-- The normalised, scaled, shifted activation, positive part. -/
theorem act_ref : val_main_v45 (F := Ideal) x y W1 b1 g s (ix4 a b c k)
    = normRelu (hiddenOf x y W1 b1 a b c) (fun k' => g (ix1 k')) (fun k' => s (ix1 k')) k := by
  rw [val_main_v45_apply, val_main_v44_apply, val_main_v41_apply, val_main_v38_apply, val_main_v33_apply, val_main_v32_apply,
    val_main_v37_apply, val_main_v36_apply, val_main_v35_apply, val_main_v34_apply, val_main_v40_apply, val_main_v39_apply,
    val_main_v43_apply, val_main_v42_apply, val_main_call0_v0_apply]
  simp only [mean_in_norm, scale_in_norm, gain_at, shift_at, hidden_ref, mean_ref, var_ref]
  rfl

/-- THE REFERENCE'S RESULT is `scores` of its arguments. -/
theorem result_ref : val_main_v51 (F := Ideal) x y W1 b1 g s W2 b2 = scores x y W1 b1 g s W2 b2 := by
  funext i
  obtain ⟨a, b, c, rfl⟩ : ∃ (a : Fin 4) (b c : Fin 512), i = ix3 a b c := ⟨i 0, i 1, i 2, eq_ix3 i⟩
  rw [val_main_v51_apply, out_reads, val_main_v50_apply, val_main_v49_apply, val_main_v46_apply, val_main_v48_apply,
    val_main_v47_apply, val_main_call1_v0_apply]
  simp only [act_in_out, w2_in_out, b2_at, act_ref]
  rfl

end Cert.ReferenceIdeal.RefScores

end
-- ==== Proof.lean ====
/-
  A pairwise scoring network: for every batch a, row b of x and row c of y, the 384-vector (x_b, y_c, |x_b − y_c|)
  goes through a linear layer with bias, layer normalisation over the 128 hidden units with scale and shift, the
  positive part, a one-column linear layer with bias, and the positive part again. The kernel computes a [64, 128]
  tile of scores per grid point, the reference all 4 × 512 × 512 at once through broadcasts.

  Over the extended reals both compute the same function, `scores` (Proof/Scores.lean over Proof/PairScore.lean),
  operation for operation: the three projections are finite sums over the 128 features added in the same order,
  both divide the sums over the hidden axis by the same constant 128, add the same constant to the variance, and
  take the same reciprocal square root; the kernel's changes of float format in front of its matrix products are the
  identity on exact values. No law beyond the definitions joins the two sides, so the precondition is not used.

  The kernel's side: Proof/KernelBody.lean (a tile's entry is the pair's score, over Proof/BodyLayout.lean and
  Proof/LibPlainMatmul.lean) and Proof/TileValue.lean (the tiles cover the result array). The reference's side:
  Proof/RefScores.lean. The kernel was printed unchanged by the idealization, so there is nothing to preserve.
-/
import proofs.«178383_j1460288881502_1_alg».proof.Defs
import proofs.«178383_j1460288881502_1_alg».proof.Proof.Gen.Kernel
import proofs.«178383_j1460288881502_1_alg».proof.Proof.Gen.Kernel.Skeleton
import proofs.«178383_j1460288881502_1_alg».proof.Proof.Gen.Kernel.Launch
import proofs.«178383_j1460288881502_1_alg».proof.Proof.Gen.Kernel.Points
import proofs.«178383_j1460288881502_1_alg».proof.Proof.Gen.Kernel.Frame
import proofs.«178383_j1460288881502_1_alg».proof.Proof.Gen.KernelIdeal
import proofs.«178383_j1460288881502_1_alg».proof.Proof.Gen.KernelIdeal.Skeleton
import proofs.«178383_j1460288881502_1_alg».proof.Proof.Gen.KernelIdeal.Launch
import proofs.«178383_j1460288881502_1_alg».proof.Proof.Gen.KernelIdeal.Points
import proofs.«178383_j1460288881502_1_alg».proof.Proof.Gen.KernelIdeal.Frame
import proofs.«178383_j1460288881502_1_alg».proof.Proof.Gen.ReferenceIdeal
import proofs.«178383_j1460288881502_1_alg».proof.Proof.Gen.KernelIdeal.Value
import proofs.«178383_j1460288881502_1_alg».proof.Proof.Gen.ReferenceIdeal.Run
import proofs.«178383_j1460288881502_1_alg».proof.Proof.Gen.ReferenceIdeal.Read
import proofs.«178383_j1460288881502_1_alg».proof.Proof.Gen.Pre_finite_inputs
import proofs.«178383_j1460288881502_1_alg».proof.Proof.TileValue
import proofs.«178383_j1460288881502_1_alg».proof.Proof.RefScores
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at `scores` of its arguments (the tiles cover it), the reference's result is
    `scores` of its arguments (stage by stage), and the arguments agree. -/
theorem algebraic : Cert.algebraic_KernelIdeal_ReferenceIdeal := by
  intro m ρ m' ρ' _ hagree
  refine ⟨fun c => Cert.KernelIdeal.Tiles.result m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v51_eq, Cert.ReferenceIdeal.RefScores.result_ref, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
